-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel

variable [Facts]

def fn {F : FTy → Type} [FloatOps F] (main_arg0 : FVec F S16777216x2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  main_v3
-- ==== Kernel.lean ====
abbrev S16777216x2 : Shape := ⟨2, ![16777216, 2]⟩
abbrev S262144x128 : Shape := ⟨2, ![262144, 128]⟩
abbrev S8192x128 : Shape := ⟨2, ![8192, 128]⟩

abbrev nBuf : Space → Nat
  | .hbm => 4
  | .vmem => 4
  | .smem => 0
  | _ => 0

abbrev bufTy : (tb : Table) → Fin (tcTables nBuf tb) → BufTy
  | .hbm, ⟨0, _⟩ => ⟨S16777216x2, .f32⟩
  | .hbm, ⟨1, _⟩ => ⟨S262144x128, .f32⟩
  | .hbm, ⟨2, _⟩ => ⟨S262144x128, .f32⟩
  | .hbm, ⟨3, _⟩ => ⟨S16777216x2, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16777216x2_S262144x128 : S16777216x2.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  rotates_S8192x128_d1 : S8192x128.Rotates 1 none
  iota_S8192x128_d1_w32 : S8192x128.Iotas .tc 32 [1]
  shapeCasts_S262144x128_S16777216x2 : S262144x128.ShapeCasts S16777216x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S_ : Shape := ⟨0, ![]⟩
abbrev S16777216 : Shape := ⟨1, ![16777216]⟩
abbrev S16777216x1 : Shape := ⟨2, ![16777216, 1]⟩

abbrev nBuf : Space → Nat
  | .hbm => 11
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216x2, .f32⟩
  | .hbm, ⟨2, _⟩ => ⟨S_, .f32⟩
  | .hbm, ⟨3, _⟩ => ⟨S16777216, .f32⟩
  | .hbm, ⟨4, _⟩ => ⟨S16777216x1, .f32⟩
  | .hbm, ⟨5, _⟩ => ⟨S16777216x1, .f32⟩
  | .hbm, ⟨6, _⟩ => ⟨S_, .f32⟩
  | .hbm, ⟨7, _⟩ => ⟨S16777216x1, .f32⟩
  | .hbm, ⟨8, _⟩ => ⟨S16777216x1, .f32⟩
  | .hbm, ⟨9, _⟩ => ⟨S16777216x2, .f32⟩
  | .hbm, ⟨10, _⟩ => ⟨S16777216x2, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  reducesTo_S16777216x2_S16777216_d1 : S16777216x2.ReducesTo [1] S16777216
  h_S_ : 0 < S_.numel
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S16777216x1_S16777216x2_0_1 : S16777216x1.BroadcastsInDim S16777216x2 (![0, 1] : Fin 2 → Fin S16777216x2.rank)

variable [Facts₀]

class Facts : Prop extends Facts₀ where

variable [Facts]
-- ==== Proof.UnitBall.lean ====
/-
  Projecting every pair onto the unit ball, as one function of the array.

  A pair (a, b) goes to (a, b) / max(√(a² + b²), 1): inside the ball the divisor is one and the pair stays, outside it is
  scaled back to the boundary. Entry by entry: an entry a whose partner in its pair is b becomes a / max(√(a·a + b·b), 1).
  On the array of pairs [16777216, 2] the partner of entry (r, c) is entry (r, 1 − c). The same numbers laid out row-major in
  rows of 128 lanes keep the two entries of a pair in neighbouring lanes 2k and 2k + 1 of one row (128 is even, so no pair
  straddles two rows); there the partner of lane l is lane l + 1 for even l and lane l − 1 for odd l. This file states the
  function on both layouts and on one tile of rows, and proves that laying the pairs out in rows, applying the row form and
  laying the result out in pairs again is the pair form: the flat position 2r + c of entry (r, c) has the parity of c, and
  its neighbour inside the pair is the flat position of (r, 1 − c).
-/
import Idealize.ShloMosaic.PureOps.Ideal
import Idealize.ShloMosaic.Lib.ValueIdx
import Idealize.ShloMosaic.Lib.Pipeline.Value

noncomputable section

namespace Cert.UnitBall

open Idealize.ShloMosaic Idealize.ShloMosaic.ValueIdx

/-- The array of pairs, the same numbers in rows of 128 lanes, and one tile of 8192 such rows. -/
abbrev Pairs : Shape := ⟨2, ![16777216, 2]⟩
abbrev Rows : Shape := ⟨2, ![262144, 128]⟩
abbrev Tile : Shape := ⟨2, ![8192, 128]⟩

/-- The float 1.0, kept as its word: both programs carry the same word, so it is never evaluated. -/
abbrev one : EReal := Ideal.ofBits .f32 0x3F800000#32

/-- One entry a with partner b: a / max(√(a·a + b·b), 1). -/
def shrink (a b : EReal) : EReal := Ideal.div a (max (Ideal.sqrt (a * a + b * b)) one)

/-- The other lane of a lane's pair: up from an even lane, down from an odd one. -/
def mateLane (l : Fin 128) : Fin 128 :=
  ⟨if l.val % 2 = 0 then l.val + 1 else l.val - 1, by have := l.isLt; split <;> omega⟩

/-- The other column of a pair. -/
def mateCol (c : Fin 2) : Fin 2 := ⟨1 - c.val, by omega⟩

/-- The projection on the array of pairs. -/
def onPairs (x : Pairs.Idx → EReal) : Pairs.Idx → EReal :=
  fun i => shrink (x i) (x (ix2 (i 0 : Fin 16777216) (mateCol (i 1))))

/-- The projection on the rows of lanes. -/
def onRows (y : Rows.Idx → EReal) : Rows.Idx → EReal :=
  fun j => shrink (y j) (y (ix2 (j 0 : Fin 262144) (mateLane (j 1))))

/-- The projection on one tile of rows. -/
def onTile (v : Tile.Idx → EReal) : Tile.Idx → EReal :=
  fun j => shrink (v j) (v (ix2 (j 0 : Fin 8192) (mateLane (j 1))))

/-- Where entry (r, c) of the pairs sits in the rows: flat position 2r + c, split at 128. -/
def rowOf (r : Fin 16777216) (c : Fin 2) : Rows.Idx :=
  ix2 (⟨(r.val * 2 + c.val) / 128, by have := r.isLt; have := c.isLt; omega⟩ : Fin 262144)
      (⟨(r.val * 2 + c.val) % 128, Nat.mod_lt _ (by decide)⟩ : Fin 128)

theorem rowOf_pos (r : Fin 16777216) (c : Fin 2) :
    (Rows.rowMajor (rowOf r c)).val = (Pairs.rowMajor (ix2 r c)).val := by
  rw [Shape.rowMajor_val_two, Shape.rowMajor_val_two]
  show (r.val * 2 + c.val) / 128 * 128 + (r.val * 2 + c.val) % 128 = r.val * 2 + c.val
  omega

/-- The partner lane of (r, c)'s place in the rows is (r, 1 − c)'s place. -/
theorem mate_pos (r : Fin 16777216) (c : Fin 2) :
    (Pairs.rowMajor (ix2 r (mateCol c))).val
      = (Rows.rowMajor (ix2 ((rowOf r c) 0 : Fin 262144) (mateLane ((rowOf r c) 1)))).val := by
  rw [Shape.rowMajor_val_two, Shape.rowMajor_val_two]
  show r.val * 2 + (1 - c.val)
    = (r.val * 2 + c.val) / 128 * 128 + (if (r.val * 2 + c.val) % 128 % 2 = 0 then (r.val * 2 + c.val) % 128 + 1 else (r.val * 2 + c.val) % 128 - 1)
  have hc := c.isLt
  split <;> omega

/-- Pairs laid out in rows, projected there, laid out in pairs again: the projection on the pairs. -/
theorem relayout (x : Pairs.Idx → EReal) (h : Pairs.ShapeCasts Rows) (h' : Rows.ShapeCasts Pairs) :
    shapeCast Pairs (onRows (shapeCast Rows x h)) h' = onPairs x := by
  funext i
  obtain ⟨r, c, rfl⟩ : ∃ (r : Fin 16777216) (c : Fin 2), i = ix2 r c := ⟨i 0, i 1, eq_ix2 i⟩
  rw [shapeCast_apply _ h' (ix2 r c) (rowOf r c) (rowOf_pos r c)]
  unfold onRows onPairs
  rw [shapeCast_apply x h (rowOf r c) (ix2 r c) (rowOf_pos r c).symm,
    shapeCast_apply x h (ix2 ((rowOf r c) 0 : Fin 262144) (mateLane ((rowOf r c) 1))) (ix2 r (mateCol c)) (mate_pos r c)]

end Cert.UnitBall

end
-- ==== Proof.Stored.lean ====
/-
  What the kernel body stores, read at Ideal: the projection on the tile it loaded.

  The body squares the tile, rotates the squares one lane each way along the rows, and picks by the parity of the lane
  number: an even lane takes the square from the lane above it, an odd lane the one from the lane below. Neither pick wraps
  around the row's end (lane 0 is even and looks up, lane 127 is odd and looks down), so each lane gets the square of its
  pair's other entry. It then adds its own square, takes the root, bounds it below by one and divides the entry by that.
-/
import proofs.«427762_j68994354643034_3_alg».proof.Proof.Gen.KernelIdeal.Skeleton
import proofs.«427762_j68994354643034_3_alg».proof.Proof.UnitBall
import Idealize.ShloMosaic.Lib.KernelVsHost

noncomputable section

namespace Cert.UnitBall

open Idealize.ShloMosaic Idealize.ShloMosaic.ValueIdx Cert.KernelIdeal Cert.KernelIdeal.Gen

/-- The lane-number test of the body, lane by lane: the low bit of the lane number is clear exactly on even lanes. -/
theorem lane_even : ∀ l : Fin 128,
    IntOp.cmpi .eq (IntOp.andi (BitVec.ofNat 32 l.val) 1#32) 0#32 = if l.val % 2 = 0 then 1#1 else 0#1 := by
  decide +kernel

variable [Cert.KernelIdeal.Facts]

/-- The picked neighbour: at lane l of any row, the select of the two rotations reads the partner lane. -/
theorem pick_mate (sq : FVec Ideal S8192x128 .f32) (p : Fin 8192) (l : Fin 128) :
    select (cmpi .eq (andi (iota .tc S8192x128 32 [1] Facts₀.iota_S8192x128_d1_w32) (broadcast S8192x128 1#32)) (broadcast S8192x128 0#32))
      (dynamicRotate 1 127#32 none sq Facts₀.rotates_S8192x128_d1) (dynamicRotate 1 1#32 none sq Facts₀.rotates_S8192x128_d1) (ix2 p l)
    = sq (ix2 p (mateLane l)) := by
  rw [select_apply]
  show Scalar.select (IntOp.cmpi .eq (IntOp.andi (iota .tc S8192x128 32 [1] Facts₀.iota_S8192x128_d1_w32 (ix2 p l)) 1#32) 0#32) _ _ = _
  rw [iota_single_apply]
  show Scalar.select (IntOp.cmpi .eq (IntOp.andi (BitVec.ofNat 32 l.val) 1#32) 0#32) _ _ = _
  rw [lane_even l]
  have hl := l.isLt
  by_cases he : l.val % 2 = 0
  · rw [if_pos he, select_one]
    refine dynamicRotate_apply (1 : Fin 2) 127#32 sq Facts₀.rotates_S8192x128_d1 (ix2 p l) (ix2 p (mateLane l)) (fun b => ?_)
    match b with
    | ⟨0, _⟩ => show p.val = if (0 : Fin 2) = 1 then _ else p.val; rw [if_neg (by decide)]
    | ⟨1, _⟩ =>
      show (mateLane l).val = if (1 : Fin 2) = 1 then (l.val + 128 - (127#32).toNat % 128) % 128 else l.val
      rw [if_pos rfl]
      show (if l.val % 2 = 0 then l.val + 1 else l.val - 1) = (l.val + 128 - 127 % 128) % 128
      rw [if_pos he]; omega
  · rw [if_neg he, select_zero]
    refine dynamicRotate_apply (1 : Fin 2) 1#32 sq Facts₀.rotates_S8192x128_d1 (ix2 p l) (ix2 p (mateLane l)) (fun b => ?_)
    match b with
    | ⟨0, _⟩ => show p.val = if (0 : Fin 2) = 1 then _ else p.val; rw [if_neg (by decide)]
    | ⟨1, _⟩ =>
      show (mateLane l).val = if (1 : Fin 2) = 1 then (l.val + 128 - (1#32).toNat % 128) % 128 else l.val
      rw [if_pos rfl]
      show (if l.val % 2 = 0 then l.val + 1 else l.val - 1) = (l.val + 128 - 1 % 128) % 128
      rw [if_neg he]; omega

/-- The stored tile is the projection of the loaded tile. -/
theorem stored_eq (v0 : Vec Ideal S8192x128 .f32) : k0_pay1 (F := Ideal) v0 = onTile v0 := by
  funext j
  obtain ⟨p, l, rfl⟩ : ∃ (p : Fin 8192) (l : Fin 128), j = ix2 p l := ⟨j 0, j 1, eq_ix2 j⟩
  unfold k0_pay1
  simp only [shapeCast_self]
  show Ideal.div (v0 (ix2 p l)) (max (Ideal.sqrt (v0 (ix2 p l) * v0 (ix2 p l)
      + select (cmpi .eq (andi (iota .tc S8192x128 32 [1] Facts₀.iota_S8192x128_d1_w32) (broadcast S8192x128 1#32)) (broadcast S8192x128 0#32))
          (dynamicRotate 1 127#32 none (mulf (F := Ideal) (φ := .f32) (v0 : FVec Ideal S8192x128 .f32) v0 : FVec Ideal S8192x128 .f32) Facts₀.rotates_S8192x128_d1) (dynamicRotate 1 1#32 none (mulf (F := Ideal) (φ := .f32) (v0 : FVec Ideal S8192x128 .f32) v0 : FVec Ideal S8192x128 .f32) Facts₀.rotates_S8192x128_d1) (ix2 p l))) one) = _
  rw [pick_mate (mulf (F := Ideal) (φ := .f32) (v0 : FVec Ideal S8192x128 .f32) v0 : FVec Ideal S8192x128 .f32) p l]
  rfl

end Cert.UnitBall

end
-- ==== Proof.Written.lean ====
/-
  What the region leaves in its output array: the row projection of its input array.

  The grid has 32 points; point t loads rows 8192·t … 8192·t + 8191 of the input (all 128 lanes) and writes back the same
  rows of the output. A lane's partner is in its own row, so the projection of a tile of rows is the tile of the projection:
  what point t writes back is block t of the projection of the whole input. Every row lies in exactly one block, the one
  numbered by its row number divided by 8192, so after the last write-back the output array is the projection everywhere.
-/
import proofs.«427762_j68994354643034_3_alg».proof.Proof.Gen.KernelIdeal.Frame
import proofs.«427762_j68994354643034_3_alg».proof.Proof.Stored
import Idealize.ShloMosaic.Lib.Pipeline.Value

set_option maxRecDepth 16384

noncomputable section

namespace Cert.UnitBall

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

theorem zero_off : (![0, 0] : Fin 2 → Nat) = fun _ => 0 := funext fun a => by fin_cases a <;> rfl

/-- The rows as the region finds them. -/
abbrev rowsIn (c : Dev nD) : Rows.Idx → EReal := V m c main_v0

/-- The two windows move together, one block of rows per point, always at lane block zero. -/
theorem windows_at : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 31 :=
  (by decide +kernel : ∀ t : Fin grid0.N, _)

/-- Every block of rows is some point's. -/
theorem block_onto : ∀ q : Fin 32, ∃ t : Fin cfg0.N, win0_1.index t = ![q.val, 0] :=
  (by decide +kernel : ∀ q : Fin 32, ∃ t : Fin grid0.N, win0_1.index t = ![q.val, 0])

/-- What point t writes back is block t of the projection of the input rows. -/
theorem flushed_eq (c : Dev nD) (t : Fin cfg0.N) :
    (dats m 0 c).flushed 1 t = ((cfg0.win 1).blk t).view.read (Elt Ideal) (onRows (rowsIn m c)) := by
  show (cfg0.win 1).cut (grid0.coords t) ((dats m 0 c).after 1 t) = _
  rw [after0_1]
  unfold out0_1
  rw [View.canon_unit_zero zero_off]
  simp only [View.ld_unit_zero (S := S8192x128) zero_off]
  rw [stored_eq]
  obtain ⟨e0, e1, e2, e3⟩ := windows_at t
  funext j
  show shrink (V m c main_v0 (((cfg0.win 0).blk t).view.emb j))
      (V m c main_v0 (((cfg0.win 0).blk t).view.emb (ix2 (j 0 : Fin 8192) (mateLane (j 1)))))
    = shrink (V m c main_v0 (((cfg0.win 1).blk t).view.emb j))
      (V m c main_v0 (ix2 ((((cfg0.win 1).blk t).view.emb j) 0 : Fin 262144) (mateLane ((((cfg0.win 1).blk t).view.emb j) 1))))
  have hj0 : (j 0).val < 8192 := (j 0).isLt
  have hj1 : (j 1).val < 128 := (j 1).isLt
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 128 + 1 * (j 1).val = win0_1.index t (1 : Fin 2) * 128 + 1 * (j 1).val; omega
  have h1 : ((cfg0.win 0).blk t).view.emb (ix2 (j 0 : Fin 8192) (mateLane (j 1)))
      = ix2 ((((cfg0.win 1).blk t).view.emb j) 0 : Fin 262144) (mateLane ((((cfg0.win 1).blk t).view.emb j) 1)) := by
    funext a; apply Fin.ext
    match a with
    | ⟨0, _⟩ => show win0_0.index t (0 : Fin 2) * 8192 + 1 * (j 0).val = win0_1.index t (0 : Fin 2) * 8192 + 1 * (j 0).val; omega
    | ⟨1, _⟩ =>
      show win0_0.index t (1 : Fin 2) * 128 + 1 * (if (j 1).val % 2 = 0 then (j 1).val + 1 else (j 1).val - 1)
        = if (win0_1.index t (1 : Fin 2) * 128 + 1 * (j 1).val) % 2 = 0 then win0_1.index t (1 : Fin 2) * 128 + 1 * (j 1).val + 1
          else win0_1.index t (1 : Fin 2) * 128 + 1 * (j 1).val - 1
      rw [e1, e2]; simp only [Nat.zero_mul, Nat.zero_add, Nat.one_mul]
  rw [h0, h1]
  rfl

/-- An index of the output array is in point t's block exactly when each coordinate is in the block's range. -/
theorem mem_blk (t : Fin cfg0.N) (i : S262144x128.Idx) :
    i ∈ ((cfg0.win 1).blk t).view.set ↔ ∀ a : Fin 2, win0_1.index t a * S8192x128.size a ≤ (i a).val
      ∧ (i a).val < win0_1.index t a * S8192x128.size a + S8192x128.size a := by
  show i ∈ ((View.whole main_v1).slice (win0_1.rect t)).set ↔ _
  rw [View.set_slice_whole, Rect.mem_set_unit]
  exact Iff.rfl

/-- Every index of the output array is in the block of the point numbered by its row over 8192. -/
theorem covered (i : S262144x128.Idx) :
    ∃ t : Fin cfg0.N, (cfg0.win 1).flush t = true ∧ i ∈ ((cfg0.win 1).blk t).view.set := by
  have hi0 : (i 0).val < 262144 := (i 0).isLt
  have hi1 : (i 1).val < 128 := (i 1).isLt
  obtain ⟨t, ht⟩ := block_onto ⟨(i 0).val / 8192, by omega⟩
  have q0 : win0_1.index t (0 : Fin 2) = (i 0).val / 8192 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 128 ≤ (i 1).val ∧ (i 1).val < win0_1.index t (1 : Fin 2) * 128 + 128; omega

/-- The output array after the run is the projection of the input rows. -/
theorem written (c : Dev nD) : (dats m 0 c).arrAt 1 cfg0.N = onRows (rowsIn m c) :=
  (dats m 0 c).arrAt_eq_of_cover 1 (onRows (rowsIn m c)) (fun t _ => flushed_eq m c t) covered

end Cert.UnitBall

end
-- ==== Proof.KernelRun.lean ====
/-
  The kernel program's run, read: its result array is the projection of its argument.

  Around the region the program only changes layout: it lays the pairs out in rows of 128 lanes before the region and lays
  the region's output out in pairs again after it. The region turns the rows into their projection, and a projection between
  two such changes of layout is the projection on the pairs.
-/
import proofs.«427762_j68994354643034_3_alg».proof.Proof.Gen.KernelIdeal.Frame
import proofs.«427762_j68994354643034_3_alg».proof.Proof.Written
import Idealize.ShloMosaic.Lib.StableHlo.Run

noncomputable section

namespace Cert.UnitBall

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-- The argument on core c, as a function on the pairs. -/
abbrev pairsIn (c : Dev nD) : Pairs.Idx → EReal := m ((c : Thread nD τ).loc main_arg0)

/-- The region's input is the argument laid out in rows. -/
theorem rowsIn_eq (c : Dev nD) :
    rowsIn m c = shapeCast S262144x128 (pairsIn m c) Facts₀.shapeCasts_S16777216x2_S262144x128 := by
  show StableHlo.after hostOps0 (fun b => m (c, b)) (Proc.devRef .tc main_v0) = _
  after_results
  rfl

/-- The program's result is the region's output laid out in pairs: the projection of the argument. -/
theorem result_eq (c : Dev nD) :
    Pipeline.afterTail₀ cfgs (dats m) 0 (V0 m) [hostOps1] c main_v2 = onPairs (pairsIn m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = onRows (rowsIn m c) :=
    (Pipeline.withArrays_arr spec0 launch0.win.arr_inj c _ _ 1).trans (written m c)
  rw [hw, rowsIn_eq]
  exact relayout (pairsIn m c) _ _

/-- Every weakly fair execution of the kernel program ends with the result array at the projection of the argument and the
    argument as it was. -/
theorem run : θ_run defs (onTc (τ := τ) (main (F := Ideal))) ⟨m, fun _ => 0, ρ⟩ (fun r => ∀ c : Dev nD,
      r.2.mem ((c.tc : Thread nD τ).loc main_v2) = onPairs (pairsIn m c)
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.UnitBall

end
-- ==== Proof.Reference.lean ====
/-
  The reference, read index by index: it is the projection on the pairs.

  The reference squares the array, sums each row's two squares from a zero start, takes the root, bounds it below by one,
  and divides each entry by its row's bound. At entry (r, c) that is the entry over max(√(0 + (x(r,0)² + x(r,1)²)), 1). The
  projection adds the entry's own square first and its partner's second: for c = 0 that is the same sum after the zero is
  dropped, for c = 1 the two squares in the other order. Addition of extended reals is commutative and zero is neutral, with
  no condition on the summands, so nothing here needs the inputs to be finite.
-/
import proofs.«427762_j68994354643034_3_alg».proof.Proof.Gen.ReferenceIdeal.Read
import proofs.«427762_j68994354643034_3_alg».proof.Proof.UnitBall
import Idealize.ShloMosaic.PureOps.Ideal.Laws

noncomputable section

namespace Cert.UnitBall.Reference

open Idealize.ShloMosaic Idealize.ShloMosaic.ValueIdx
open Cert.ReferenceIdeal Cert.ReferenceIdeal.Read Cert.UnitBall

variable [Cert.ReferenceIdeal.Facts]

/-- The row's k-th entry, as the reference's composed index maps name it from entry (r, c). -/
theorem row_entry (r : Fin 16777216) (c k : Fin 2) :
    idx_main_v1 (idx_main_v2 (idx_main_v6 (ix2 r c))) k = ix2 r k :=
  funext fun a => Fin.ext (by match a with | ⟨0, _⟩ => rfl | ⟨1, _⟩ => rfl)

/-- The reference's last stage is the projection on the pairs. -/
theorem stage_eq (x : (⟨S16777216x2, .f32⟩ : BufTy).Contents (Elt Ideal)) :
    val_main_v7 (F := Ideal) x = onPairs x := by
  funext i
  obtain ⟨r, c, rfl⟩ : ∃ (r : Fin 16777216) (c : Fin 2), i = ix2 r c := ⟨i 0, i 1, eq_ix2 i⟩
  rw [val_main_v7_apply, val_main_v6_apply, val_main_v5_apply, val_main_v3_apply, val_main_v2_apply, val_main_v1_apply,
    val_main_v4_apply, val_main_cst_0_apply, val_main_cst_apply, Fin.sum_univ_two]
  simp only [val_main_v0_apply, row_entry, Ideal.hostDivf_def, Ideal.maximumf_def, Ideal.hostUnary_sqrt_def, Ideal.ofBits_def,
    Ideal.mulf_def, Ideal.ofBits_zero_f32, zero_add]
  unfold onPairs shrink
  match c with
  | ⟨0, _⟩ => rfl
  | ⟨1, _⟩ =>
    show Ideal.div (x (ix2 r 1)) (max (Ideal.sqrt (x (ix2 r 0) * x (ix2 r 0) + x (ix2 r 1) * x (ix2 r 1))) one)
      = Ideal.div (x (ix2 r 1)) (max (Ideal.sqrt (x (ix2 r 1) * x (ix2 r 1) + x (ix2 r 0) * x (ix2 r 0))) one)
    rw [add_comm]

end Cert.UnitBall.Reference

end
-- ==== Proof.lean ====
/-
  Projecting 2-vectors onto the unit ball: the kernel and its reference compute one function.

  Both programs send every pair (a, b) of the argument, an array of 16777216 pairs, to (a, b) / max(√(a² + b²), 1). The
  reference does it on the array of pairs: square, sum each row's two squares from zero, root, bound below by one, divide.
  The kernel first lays the pairs out row-major in rows of 128 lanes, so that the two entries of a pair are neighbouring
  lanes 2k and 2k + 1 of one row; on each tile of 8192 rows it squares, fetches for every lane the square of the other lane of
  its pair (one lane up for even lanes, one lane down for odd ones, by two rotations and a parity select that never reach
  around a row's end), adds, roots, bounds and divides; and it lays the rows out in pairs again. Read over the extended reals
  the two results agree entry by entry: the kernel adds an entry's own square to its partner's, the reference adds zero, then
  the row's first square, then its second, and addition of extended reals is commutative with zero neutral, whatever the
  summands. Root, maximum and quotient are the same functions on both sides, and the literal 1.0 is the same word. No step
  uses that the inputs are finite.

  The modules: UnitBall states the function on the pairs, on the rows and on a tile, and that the row form between the two
  changes of layout is the pair form; Stored reads the kernel body's stored value as the tile form; Written reads the
  region's output array as the row form of its input array; KernelRun reads the program's result through the two changes of
  layout; Reference reads the reference's result as the pair form. Below: the three programs run and keep their argument,
  the idealized kernel is the kernel's own text (nothing was rewritten), and the two idealized programs end with equal
  results.
-/
import proofs.«427762_j68994354643034_3_alg».proof.Defs
import proofs.«427762_j68994354643034_3_alg».proof.Proof.Gen.Kernel
import proofs.«427762_j68994354643034_3_alg».proof.Proof.Gen.Kernel.Skeleton
import proofs.«427762_j68994354643034_3_alg».proof.Proof.Gen.Kernel.Launch
import proofs.«427762_j68994354643034_3_alg».proof.Proof.Gen.Kernel.Points
import proofs.«427762_j68994354643034_3_alg».proof.Proof.Gen.Kernel.Frame
import proofs.«427762_j68994354643034_3_alg».proof.Proof.Gen.KernelIdeal
import proofs.«427762_j68994354643034_3_alg».proof.Proof.Gen.KernelIdeal.Skeleton
import proofs.«427762_j68994354643034_3_alg».proof.Proof.Gen.KernelIdeal.Launch
import proofs.«427762_j68994354643034_3_alg».proof.Proof.Gen.KernelIdeal.Points
import proofs.«427762_j68994354643034_3_alg».proof.Proof.Gen.KernelIdeal.Frame
import proofs.«427762_j68994354643034_3_alg».proof.Proof.Gen.ReferenceIdeal
import proofs.«427762_j68994354643034_3_alg».proof.Proof.Gen.Pre_finite_inputs
import proofs.«427762_j68994354643034_3_alg».proof.Proof.Gen.ReferenceIdeal.Run
import proofs.«427762_j68994354643034_3_alg».proof.Proof.Gen.ReferenceIdeal.Read
import proofs.«427762_j68994354643034_3_alg».proof.Proof.UnitBall
import proofs.«427762_j68994354643034_3_alg».proof.Proof.Stored
import proofs.«427762_j68994354643034_3_alg».proof.Proof.Written
import proofs.«427762_j68994354643034_3_alg».proof.Proof.KernelRun
import proofs.«427762_j68994354643034_3_alg».proof.Proof.Reference
import Idealize.ShloMosaic.Adequacy
import Idealize.ShloMosaic.Init

noncomputable section

namespace Cert.Proof

open Idealize.ShloMosaic Idealize.SL.Sem

/-- The kernel program, on words, runs and keeps its argument. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference has no region: it runs operation by operation, and its run with the result dropped is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end at the projection of the argument they agree on. -/
theorem algebraic : Cert.algebraic_KernelIdeal_ReferenceIdeal := by
  intro m ρ m' ρ' _ hagree
  refine ⟨fun c => Cert.UnitBall.onPairs (Cert.UnitBall.pairsIn m c), Cert.UnitBall.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.UnitBall.Reference.stage_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
